-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x256 : Shape := ⟨3, ![128, 128, 256]⟩
abbrev S128x128x8x16 : Shape := ⟨4, ![128, 128, 8, 16]⟩
abbrev S128x128x8 : Shape := ⟨3, ![128, 128, 8]⟩
abbrev S_ : Shape := ⟨0, ![]⟩

class Facts : Prop where
  bcast_S_S128x128x256 : S_.BroadcastsInDim S128x128x256 (![] : Fin 0 → Fin S128x128x256.rank)
  reducesTo_S128x128x256_S_d0_1_2 : S128x128x256.ReducesTo [0, 1, 2] S_
  h_S_ : 0 < S_.numel
  bcast_S_S128x128x8x16 : S_.BroadcastsInDim S128x128x8x16 (![] : Fin 0 → Fin S128x128x8x16.rank)
  reducesTo_S128x128x8x16_S_d0_1_2_3 : S128x128x8x16.ReducesTo [0, 1, 2, 3] S_
  bcast_S_S128x128x8 : S_.BroadcastsInDim S128x128x8 (![] : Fin 0 → Fin S128x128x8.rank)
  reducesTo_S128x128x8_S_d0_1_2 : S128x128x8.ReducesTo [0, 1, 2] S_

variable [Facts]

def fn {F : FTy → Type} [FloatOps F] (main_arg0 : FVec F S128x128x256 .f32) (main_arg1 : FVec F S128x128x8x16 .f32) (main_arg2 : IVec S128x128x8 32) : IVec S_ 1 :=
  let main_v0 : FVec F S128x128x256 .f32 := Host.absf main_arg0
  let main_cst : FVec F S_ .f32 := constant S_ .f32 0x7F800000#32
  let main_v1 : FVec F S128x128x256 .f32 := broadcastInDim S128x128x256 ![] bcast_S_S128x128x256 main_cst
  let main_v2 : IVec S128x128x256 1 := cmpf .olt main_v0 main_v1
  let main_c : IVec S_ 1 := constantI S_ 1 1#1
  let main_v3 : IVec S_ 1 := (fun x v => Host.reduce IntOp.andi x v reducesTo_S128x128x256_S_d0_1_2 h_S_) main_v2 main_c
  let main_v4 : FVec F S128x128x8x16 .f32 := Host.absf main_arg1
  let main_cst_0 : FVec F S_ .f32 := constant S_ .f32 0x7F800000#32
  let main_v5 : FVec F S128x128x8x16 .f32 := broadcastInDim S128x128x8x16 ![] bcast_S_S128x128x8x16 main_cst_0
  let main_v6 : IVec S128x128x8x16 1 := cmpf .olt main_v4 main_v5
  let main_c_1 : IVec S_ 1 := constantI S_ 1 1#1
  let main_v7 : IVec S_ 1 := (fun x v => Host.reduce IntOp.andi x v reducesTo_S128x128x8x16_S_d0_1_2_3 h_S_) main_v6 main_c_1
  let main_v8 : IVec S_ 1 := andi main_v3 main_v7
  let main_c_2 : IVec S_ 32 := constantI S_ 32 4294967295#32
  let main_v9 : IVec S128x128x8 32 := broadcastInDim S128x128x8 ![] bcast_S_S128x128x8 main_c_2
  let main_v10 : IVec S128x128x8 1 := cmpi .sge main_arg2 main_v9
  let main_c_3 : IVec S_ 32 := constantI S_ 32 128#32
  let main_v11 : IVec S128x128x8 32 := broadcastInDim S128x128x8 ![] bcast_S_S128x128x8 main_c_3
  let main_v12 : IVec S128x128x8 1 := cmpi .slt main_arg2 main_v11
  let main_v13 : IVec S128x128x8 1 := andi main_v10 main_v12
  let main_c_4 : IVec S_ 1 := constantI S_ 1 1#1
  let main_v14 : IVec S_ 1 := (fun x v => Host.reduce IntOp.andi x v reducesTo_S128x128x8_S_d0_1_2 h_S_) main_v13 main_c_4
  let main_v15 : IVec S_ 1 := andi main_v8 main_v14
  main_v15
-- ==== Kernel.lean ====
abbrev S128x128x256 : Shape := ⟨3, ![128, 128, 256]⟩
abbrev S128x128x8x16 : Shape := ⟨4, ![128, 128, 8, 16]⟩
abbrev S128x128x8 : Shape := ⟨3, ![128, 128, 8]⟩
abbrev S16x128x256 : Shape := ⟨3, ![16, 128, 256]⟩
abbrev S16x128x8 : Shape := ⟨3, ![16, 128, 8]⟩
abbrev S1x128x128 : Shape := ⟨3, ![1, 128, 128]⟩
abbrev S16x128x1 : Shape := ⟨3, ![16, 128, 1]⟩
abbrev S16x128 : Shape := ⟨2, ![16, 128]⟩
abbrev S16x128x128 : Shape := ⟨3, ![16, 128, 128]⟩

abbrev nBuf : Space → Nat
  | .hbm => 4
  | .vmem => 6
  | .smem => 0
  | _ => 0

abbrev bufTy : (tb : Table) → Fin (tcTables nBuf tb) → BufTy
  | .hbm, ⟨0, _⟩ => ⟨S128x128x256, .f32⟩
  | .hbm, ⟨1, _⟩ => ⟨S128x128x8x16, .f32⟩
  | .hbm, ⟨2, _⟩ => ⟨S128x128x8, .i32⟩
  | .hbm, ⟨3, _⟩ => ⟨S128x128x256, .f32⟩
  | .local _ .vmem, ⟨0, _⟩ => ⟨S16x128x256, .f32⟩
  | .local _ .vmem, ⟨1, _⟩ => ⟨S16x128x256, .f32⟩
  | .local _ .vmem, ⟨2, _⟩ => ⟨S16x128x8, .i32⟩
  | .local _ .vmem, ⟨3, _⟩ => ⟨S16x128x8, .i32⟩
  | .local _ .vmem, ⟨4, _⟩ => ⟨S16x128x256, .f32⟩
  | .local _ .vmem, ⟨5, _⟩ => ⟨S16x128x256, .f32⟩
  | _, _ => ⟨S128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16x128x256_S16x128x256_0_0_0 : ∀ a, (![0, 0, 0] : Fin 3 → Nat) a + S16x128x256.size a ≤ S16x128x256.size a
  h_S16x128x256 : 0 < S16x128x256.numel
  inb_S16x128x8_S16x128x8_0_0_0 : ∀ a, (![0, 0, 0] : Fin 3 → Nat) a + S16x128x8.size a ≤ S16x128x8.size a
  h_S16x128x8 : 0 < S16x128x8.numel
  bitsLt_bf16_f32 : FTy.bits .bf16 < FTy.bits .f32
  iota_S1x128x128_d2_w32 : S1x128x128.Iotas .tc 32 [2]
  slices_S16x128x8_o0_0_0_S16x128x1 : S16x128x8.Slices ![0, 0, 0] S16x128x1
  shapeCasts_S16x128x1_S16x128 : S16x128x1.ShapeCasts S16x128
  shapeCasts_S16x128_S16x128x1 : S16x128.ShapeCasts S16x128x1
  broadcasts_S16x128x1_S16x128x128 : S16x128x1.Broadcasts S16x128x128
  broadcasts_S1x128x128_S16x128x128 : S1x128x128.Broadcasts S16x128x128
  natLt_1_32 : 1 < 32
  broadcasts_S16x128x1_S16x128x256 : S16x128x1.Broadcasts S16x128x256
  slices_S16x128x8_o0_0_1_S16x128x1 : S16x128x8.Slices ![0, 0, 1] S16x128x1
  slices_S16x128x8_o0_0_2_S16x128x1 : S16x128x8.Slices ![0, 0, 2] S16x128x1
  slices_S16x128x8_o0_0_3_S16x128x1 : S16x128x8.Slices ![0, 0, 3] S16x128x1
  slices_S16x128x8_o0_0_4_S16x128x1 : S16x128x8.Slices ![0, 0, 4] S16x128x1
  slices_S16x128x8_o0_0_5_S16x128x1 : S16x128x8.Slices ![0, 0, 5] S16x128x1
  slices_S16x128x8_o0_0_6_S16x128x1 : S16x128x8.Slices ![0, 0, 6] S16x128x1
  slices_S16x128x8_o0_0_7_S16x128x1 : S16x128x8.Slices ![0, 0, 7] S16x128x1
  dot_S16x128x128_S16x128x256_S16x128x256_2_1_1_2_0_0_wf : DotDims.WF S16x128x128 S16x128x256 S16x128x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S128x128x256.size a
  hwx0_0 : ∀ i : grid0.Coords, EltTy.bits .f32 = 32 ∨ (Rect.block (s := S128x128x256) S16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x8.size a ≤ S128x128x8.size a
  hwx0_1 : ∀ i : grid0.Coords, EltTy.bits .i32 = 32 ∨ (Rect.block (s := S128x128x8) S16x128x8.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x256.size a ≤ S128x128x256.size a
  hwx0_2 : ∀ i : grid0.Coords, EltTy.bits .f32 = 32 ∨ (Rect.block (s := S128x128x256) S16x128x256.size (cc0_transform_2 i) (hinb0_2 i)).WholeWords (EltTy.packing .f32)

variable [Facts₀]

def dot_S16x128x128_S16x128x256_S16x128x256_2_1_1_2_0_0 : DotDims S16x128x128 S16x128x256 S16x128x256 where
  lhsContracting := [2]
  rhsContracting := [1]
  lhsNonContracting := [1]
  rhsNonContracting := [2]
  lhsBatch := [0]
  rhsBatch := [0]
  wf := dot_S16x128x128_S16x128x256_S16x128x256_2_1_1_2_0_0_wf

abbrev win0_0 : Pipeline.Window sig grid0 :=
  Pipeline.Window.ofSpec (Memref.whole main_arg0) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x128x256 : Shape := ⟨3, ![128, 128, 256]⟩
abbrev S128x128x8x16 : Shape := ⟨4, ![128, 128, 8, 16]⟩
abbrev S128x128x8 : Shape := ⟨3, ![128, 128, 8]⟩
abbrev S_ : Shape := ⟨0, ![]⟩
abbrev S128x129x256 : Shape := ⟨3, ![128, 129, 256]⟩
abbrev S128x128x8x1 : Shape := ⟨4, ![128, 128, 8, 1]⟩
abbrev S128x128x8x256 : Shape := ⟨4, ![128, 128, 8, 256]⟩
abbrev S128x128x1x256 : Shape := ⟨4, ![128, 128, 1, 256]⟩
abbrev S128x128x9x256 : Shape := ⟨4, ![128, 128, 9, 256]⟩
abbrev S128x128 : Shape := ⟨2, ![128, 128]⟩
abbrev S128x128x1 : Shape := ⟨3, ![128, 128, 1]⟩

abbrev nBuf : Space → Nat
  | .hbm => 35
  | .vmem => 0
  | .smem => 0
  | _ => 0

abbrev bufTy : (tb : Table) → Fin (tcTables nBuf tb) → BufTy
  | .hbm, ⟨0, _⟩ => ⟨S128x128x256, .f32⟩
  | .hbm, ⟨1, _⟩ => ⟨S128x128x8x16, .f32⟩
  | .hbm, ⟨2, _⟩ => ⟨S128x128x8, .i32⟩
  | .hbm, ⟨3, _⟩ => ⟨S_, .i32⟩
  | .hbm, ⟨4, _⟩ => ⟨S128x128x8, .i32⟩
  | .hbm, ⟨5, _⟩ => ⟨S128x128x8, .i32⟩
  | .hbm, ⟨6, _⟩ => ⟨S_, .i32⟩
  | .hbm, ⟨7, _⟩ => ⟨S_, .f32⟩
  | .hbm, ⟨8, _⟩ => ⟨S128x129x256, .f32⟩
  | .hbm, ⟨9, _⟩ => ⟨S_, .i32⟩
  | .hbm, ⟨10, _⟩ => ⟨S128x128x8, .i32⟩
  | .hbm, ⟨11, _⟩ => ⟨S128x128x8, .i1⟩
  | .hbm, ⟨12, _⟩ => ⟨S_, .i32⟩
  | .hbm, ⟨13, _⟩ => ⟨S128x128x8, .i32⟩
  | .hbm, ⟨14, _⟩ => ⟨S128x128x8, .i32⟩
  | .hbm, ⟨15, _⟩ => ⟨S128x128x8, .i32⟩
  | .hbm, ⟨16, _⟩ => ⟨S128x128x8x1, .i32⟩
  | .hbm, ⟨17, _⟩ => ⟨S128x128x8x256, .f32⟩
  | .hbm, ⟨18, _⟩ => ⟨S128x128x1x256, .f32⟩
  | .hbm, ⟨19, _⟩ => ⟨S128x128x9x256, .f32⟩
  | .hbm, ⟨20, _⟩ => ⟨S_, .f32⟩
  | .hbm, ⟨21, _⟩ => ⟨S128x128x256, .f32⟩
  | .hbm, ⟨22, _⟩ => ⟨S_, .i32⟩
  | .hbm, ⟨23, _⟩ => ⟨S128x128x8, .i32⟩
  | .hbm, ⟨24, _⟩ => ⟨S128x128x8, .i1⟩
  | .hbm, ⟨25, _⟩ => ⟨S128x128x8, .f32⟩
  | .hbm, ⟨26, _⟩ => ⟨S_, .f32⟩
  | .hbm, ⟨27, _⟩ => ⟨S128x128, .f32⟩
  | .hbm, ⟨28, _⟩ => ⟨S128x128x1, .f32⟩
  | .hbm, ⟨29, _⟩ => ⟨S_, .f32⟩
  | .hbm, ⟨30, _⟩ => ⟨S128x128x1, .f32⟩
  | .hbm, ⟨31, _⟩ => ⟨S128x128x1, .i1⟩
  | .hbm, ⟨32, _⟩ => ⟨S128x128x1, .f32⟩
  | .hbm, ⟨33, _⟩ => ⟨S128x128x256, .f32⟩
  | .hbm, ⟨34, _⟩ => ⟨S128x128x256, .f32⟩
  | _, _ => ⟨S128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S_S128x128x8 : S_.BroadcastsInDim S128x128x8 (![] : Fin 0 → Fin S128x128x8.rank)
  pads_S128x128x256_S128x129x256_000_100_000 : S128x128x256.Pads (![0, 1, 0] : Fin 3 → Nat) ![0, 0, 0] ![0, 0, 0] S128x129x256
  h_S_ : 0 < S_.numel
  bcast_S128x128x8_S128x128x8x1_0_1_2 : S128x128x8.BroadcastsInDim S128x128x8x1 (![0, 1, 2] : Fin 3 → Fin S128x128x8x1.rank)
  bcast_S128x128x256_S128x128x1x256_0_1_3 : S128x128x256.BroadcastsInDim S128x128x1x256 (![0, 1, 3] : Fin 3 → Fin S128x128x1x256.rank)
  concatenates_S128x128x1x256_S128x128x8x256_S128x128x9x256_d2 : Shape.Concatenates [S128x128x1x256, S128x128x8x256] S128x128x9x256 2
  reducesTo_S128x128x9x256_S128x128x256_d2 : S128x128x9x256.ReducesTo [2] S128x128x256
  reducesTo_S128x128x8_S128x128_d2 : S128x128x8.ReducesTo [2] S128x128
  bcast_S128x128_S128x128x1_0_1 : S128x128.BroadcastsInDim S128x128x1 (![0, 1] : Fin 2 → Fin S128x128x1.rank)
  bcast_S_S128x128x1 : S_.BroadcastsInDim S128x128x1 (![] : Fin 0 → Fin S128x128x1.rank)
  bcast_S128x128x1_S128x128x256_0_1_2 : S128x128x1.BroadcastsInDim S128x128x256 (![0, 1, 2] : Fin 3 → Fin S128x128x256.rank)
  gather_S128x129x256_S128x128x8x1_S128x128x8x256_3_1_0_0_1_3_11256_wf : GatherDims.WF S128x129x256 S128x128x8x1 S128x128x8x256 [3] [1] [0] [1] [0] 3 ![1, 1, 256]

variable [Facts₀]

def gather_S128x129x256_S128x128x8x1_S128x128x8x256_3_1_0_0_1_3_11256 : GatherDims S128x129x256 S128x128x8x1 S128x128x8x256 where
  offsetDims := [3]
  collapsedSliceDims := [1]
  operandBatchingDims := [0]
  startIndicesBatchingDims := [0]
  startIndexMap := [1]
  indexVectorDim := 3
  sliceSizes := ![1, 1, 256]
  wf := gather_S128x129x256_S128x128x8x1_S128x128x8x256_3_1_0_0_1_3_11256_wf

class Facts : Prop extends Facts₀ where

variable [Facts]
-- ==== Proof.Spec.lean ====
/-
  The value both programs compute, for one atom `a` of one sample and one feature: from the sample's column of that
  feature over the 128 atoms (`col`) and the atom's eight edge words (`ws`),

      ( max over the eight neighbour slots and the atom's own entry ) · [ the atom has an edge that is not padding ].

  An edge word is the padding `-1` or the index of a neighbouring atom, `0 ≤ w < 128` (`InRange`). A padding slot
  contributes the value `0` to the maximum; a neighbour slot contributes the neighbour's entry `col w`.

  The kernel reads a slot (`pick`) as a one-hot row times the column — the row of `max w 0` against the positions
  `0 … 127` — times the bit "w is not padding" (`live`). The reference reads it (`pickR`) as row `w + 1` of the column
  with a zero entry put in front (`padCol`), a negative row wrapped by 129 and the row clamped into `0 … 128`. On words
  in range both are: `0` at the padding, `col w` at a neighbour.
  The kernel takes the maximum as a left-nested chain ending in the atom's own entry and counts the live slots by a
  left-nested sum from zero (`poolK`); the reference folds `max` from `-∞` over the nine entries, the atom's own first,
  and counts by a sum over the eight slots (`poolR`). `poolK_eq_poolR` joins them.
-/
import Idealize.ShloMosaic.PureOps.Ideal
import Idealize.ShloMosaic.PureOps.Ideal.Laws
import Idealize.ShloMosaic.Lib.ValueIdx
import Mathlib.Data.Finset.Fold
import Mathlib.Algebra.BigOperators.Fin

noncomputable section

open scoped BigOperators

namespace Cert.Pool

open Idealize.ShloMosaic Idealize.ShloMosaic.ValueIdx

/-- An edge word in range: the padding `-1`, or a neighbour's index below 128. -/
def InRange (w : BitVec 32) : Prop := w = 4294967295#32 ∨ w.toNat < 128

/-- The bit "`w` is not the padding", widened to a word and read SIGNED as a number (the kernel's reading). -/
def live (w : BitVec 32) : EReal := (((BitVec.setWidth 32 (IntOp.cmpi .ne w 4294967295#32)).toInt : ℝ) : EReal)

/-- The same bit read UNSIGNED as a number (the reference's reading). -/
def liveU (w : BitVec 32) : EReal := (((IntOp.cmpi .ne w 4294967295#32).toNat : ℝ) : EReal)

/-- Entry `k` of the kernel's one-hot row for edge word `w`: the bit "`max w 0` is `k`", widened and read signed. -/
def hot (w : BitVec 32) (k : Fin 128) : EReal :=
  (((BitVec.setWidth 32 (IntOp.cmpi .eq (IntOp.maxsi w 0#32) (BitVec.ofNat 32 k.val))).toInt : ℝ) : EReal)

/-- The kernel's neighbour slot: the one-hot row times the column, times the live bit. -/
def pick (col : Fin 128 → EReal) (w : BitVec 32) : EReal := (∑ k : Fin 128, hot w k * col k) * live w

/-- The reference's row of the padded table for edge word `w`: `w + 1`, plus 129 when that is negative, read signed and
    clamped into `0 … 128`. -/
def rowR (w : BitVec 32) : ℕ :=
  min (Scalar.select (IntOp.cmpi .slt (IntOp.addi w 1#32) 0#32) (IntOp.addi (IntOp.addi w 1#32) 129#32)
    (IntOp.addi w 1#32)).toInt.toNat 128

/-- The column with the entry `z` put in front: row 0 is `z`, row `r + 1` is `col r`. -/
def padCol (z : EReal) (col : Fin 128 → EReal) (r : ℕ) : EReal :=
  if h : 1 ≤ r ∧ r - 1 < 128 then col ⟨r - 1, h.2⟩ else z

/-- The reference's neighbour slot: the padded column (zero in front) at the word's row. -/
def pickR (col : Fin 128 → EReal) (w : BitVec 32) : EReal :=
  padCol (((0#32 : BitVec 32).toInt : ℝ) : EReal) col (rowR w)

/-- The kernel's count of live slots: zero plus each slot's bit, left to right. -/
def degK (ws : Fin 8 → BitVec 32) : EReal :=
  Ideal.ofBits .f32 0x00000000#32 + live (ws 0) + live (ws 1) + live (ws 2) + live (ws 3) + live (ws 4) + live (ws 5)
    + live (ws 6) + live (ws 7)

/-- The kernel's mask: the bit "the count is not zero", widened and read signed. -/
def maskK (ws : Fin 8 → BitVec 32) : EReal :=
  (((BitVec.setWidth 32 (Ideal.cmp .one (degK ws) (Ideal.ofBits .f32 0x00000000#32))).toInt : ℝ) : EReal)

/-- The kernel's value at atom `a`. -/
def poolK (col : Fin 128 → EReal) (ws : Fin 8 → BitVec 32) (a : Fin 128) : EReal :=
  max (max (max (max (max (max (max (max (pick col (ws 0)) (pick col (ws 1))) (pick col (ws 2))) (pick col (ws 3)))
    (pick col (ws 4))) (pick col (ws 5))) (pick col (ws 6))) (pick col (ws 7))) (col a) * maskK ws

/-- The reference's nine entries under the maximum: the atom's own first, then the eight slots. -/
def nine (col : Fin 128 → EReal) (ws : Fin 8 → BitVec 32) (a : Fin 128) (k : Fin 9) : EReal :=
  if h : k.val = 0 then col a else pickR col (ws ⟨k.val - 1, by have := k.isLt; omega⟩)

/-- The reference's count of live slots: zero plus the sum of the slots' bits. -/
def degR (ws : Fin 8 → BitVec 32) : EReal := Ideal.ofBits .f32 0x00000000#32 + ∑ k : Fin 8, liveU (ws k)

/-- The reference's mask: the bit "the count is not zero", read unsigned. -/
def maskR (ws : Fin 8 → BitVec 32) : EReal :=
  (((Ideal.cmp .une (degR ws) (Ideal.ofBits .f32 0x00000000#32)).toNat : ℝ) : EReal)

/-- The reference's value at atom `a`. -/
def poolR (col : Fin 128 → EReal) (ws : Fin 8 → BitVec 32) (a : Fin 128) : EReal :=
  (Finset.univ : Finset (Fin 9)).fold max (Ideal.ofBits .f32 0xFF800000#32) (nine col ws a) * maskR ws

abbrev SA : Shape := ⟨3, ![128, 128, 256]⟩
abbrev SE : Shape := ⟨3, ![128, 128, 8]⟩

/-- The kernel's result array of the atoms `x` and edges `e`: entry (b, a, f) pools sample b's column of feature f. -/
def GK (x : SA.Idx → EReal) (e : SE.Idx → BitVec 32) : SA.Idx → EReal := fun i =>
  poolK (fun k => x (ix3 (i 0) k (i 2))) (fun d => e (ix3 (i 0) (i 1) d)) (i 1)

/-- The reference's result array. -/
def GR (x : SA.Idx → EReal) (e : SE.Idx → BitVec 32) : SA.Idx → EReal := fun i =>
  poolR (fun k => x (ix3 (i 0) k (i 2))) (fun d => e (ix3 (i 0) (i 1) d)) (i 1)

/-! ## The two readings of a slot agree on words in range -/

/-- A one-bit word widened to 32 bits reads the same signed as unsigned. -/
theorem bit_toInt : ∀ b : BitVec 1, (b.setWidth 32).toInt = (b.toNat : ℤ) := by decide

theorem live_eq_liveU (w : BitVec 32) : live w = liveU w := by
  unfold live liveU
  rw [bit_toInt, Int.cast_natCast]

/-- The set bit reads 1, the cleared bit 0. -/
theorem bit_one : (((BitVec.setWidth 32 (1#1 : BitVec 1)).toInt : ℝ) : EReal) = 1 := by
  have e : (BitVec.setWidth 32 (1#1 : BitVec 1)).toInt = 1 := by decide
  rw [e]; simp
theorem bit_zero : (((BitVec.setWidth 32 (0#1 : BitVec 1)).toInt : ℝ) : EReal) = 0 := by
  have e : (BitVec.setWidth 32 (0#1 : BitVec 1)).toInt = 0 := by decide
  rw [e]; simp

theorem live_pad : live 4294967295#32 = 0 := by
  have e : IntOp.cmpi .ne (4294967295#32 : BitVec 32) 4294967295#32 = 0#1 := by decide
  unfold live; rw [e, bit_zero]

theorem live_of_ne {w : BitVec 32} (h : w ≠ 4294967295#32) : live w = 1 := by
  have e : IntOp.cmpi .ne w 4294967295#32 = 1#1 := by
    unfold IntOp.cmpi
    have : (w != 4294967295#32) = true := bne_iff_ne.2 h
    rw [this]; rfl
  unfold live; rw [e, bit_one]

/-- A word below 128 is not the padding. -/
theorem ne_pad_of_lt {w : BitVec 32} (h : w.toNat < 128) : w ≠ 4294967295#32 := by
  intro e; rw [e] at h; simp at h

/-- A word below 128 reads the same signed as unsigned. -/
theorem toInt_of_lt {w : BitVec 32} (h : w.toNat < 129) : w.toInt = (w.toNat : ℤ) := by
  rw [BitVec.toInt_eq_toNat_cond]; split <;> omega

/-- Below 128 the signed maximum with zero is the word itself. -/
theorem maxsi_zero_of_lt {w : BitVec 32} (h : w.toNat < 128) : IntOp.maxsi w 0#32 = w := by
  unfold IntOp.maxsi
  split
  · rfl
  · rename_i hs
    apply BitVec.eq_of_toNat_eq
    have hw := toInt_of_lt (w := w) (by omega)
    have h0 : ¬ ((0#32 : BitVec 32).toInt < w.toInt) := by
      intro hlt; exact hs (by rw [BitVec.slt]; exact decide_eq_true hlt)
    rw [hw] at h0
    simp at h0
    simp
    omega

/-- Below 128 the one-hot entry at position k is 1 where k is the word, 0 elsewhere. -/
theorem hot_of_lt {w : BitVec 32} (h : w.toNat < 128) (k : Fin 128) : hot w k = if w.toNat = k.val then 1 else 0 := by
  unfold hot
  rw [maxsi_zero_of_lt h]
  have hk : (BitVec.ofNat 32 k.val).toNat = k.val := by
    rw [BitVec.toNat_ofNat]; have := k.isLt; omega
  by_cases e : w.toNat = k.val
  · have hw : w = BitVec.ofNat 32 k.val := BitVec.eq_of_toNat_eq (by rw [hk]; exact e)
    have ec : IntOp.cmpi .eq w (BitVec.ofNat 32 k.val) = 1#1 := by
      unfold IntOp.cmpi
      have : (w == BitVec.ofNat 32 k.val) = true := beq_iff_eq.2 hw
      rw [this]; rfl
    rw [if_pos e, ec, bit_one]
  · have hw : w ≠ BitVec.ofNat 32 k.val := fun ew => e (by rw [ew, hk])
    have ec : IntOp.cmpi .eq w (BitVec.ofNat 32 k.val) = 0#1 := by
      unfold IntOp.cmpi
      have : (w == BitVec.ofNat 32 k.val) = false := beq_eq_false_iff_ne.2 hw
      rw [this]; rfl
    rw [if_neg e, ec, bit_zero]

/-- The kernel's slot at a neighbour's index is the neighbour's entry. -/
theorem pick_of_lt (col : Fin 128 → EReal) {w : BitVec 32} (h : w.toNat < 128) : pick col w = col ⟨w.toNat, h⟩ := by
  unfold pick
  rw [live_of_ne (ne_pad_of_lt h), mul_one, Finset.sum_eq_single (⟨w.toNat, h⟩ : Fin 128)]
  · rw [hot_of_lt h, if_pos rfl, one_mul]
  · intro k _ hk
    rw [hot_of_lt h, if_neg (fun e => hk (Fin.ext e.symm)), zero_mul]
  · intro hn; exact absurd (Finset.mem_univ _) hn

/-- The kernel's slot at the padding is zero. -/
theorem pick_pad (col : Fin 128 → EReal) : pick col 4294967295#32 = 0 := by
  unfold pick; rw [live_pad, mul_zero]

theorem rowR_pad : rowR 4294967295#32 = 0 := by decide

/-- A neighbour's index w is row w + 1 of the padded table. -/
theorem rowR_of_lt {w : BitVec 32} (h : w.toNat < 128) : rowR w = w.toNat + 1 := by
  unfold rowR
  have h1 : (IntOp.addi w 1#32).toNat = w.toNat + 1 := by
    unfold IntOp.addi; rw [BitVec.toNat_add]; simp; omega
  have h1i : (IntOp.addi w 1#32).toInt = (w.toNat : ℤ) + 1 := by
    rw [toInt_of_lt (by omega), h1]; push_cast; rfl
  have hc : IntOp.cmpi .slt (IntOp.addi w 1#32) 0#32 = 0#1 := by
    unfold IntOp.cmpi
    have : (IntOp.addi w 1#32).slt 0#32 = false := by
      rw [BitVec.slt, h1i]
      simp only [BitVec.toInt_zero, decide_eq_false_iff_not]
      omega
    rw [this]; rfl
  rw [hc, select_zero, h1i]
  omega

/-- The reference's slot at a neighbour's index is the neighbour's entry. -/
theorem pickR_of_lt (col : Fin 128 → EReal) {w : BitVec 32} (h : w.toNat < 128) : pickR col w = col ⟨w.toNat, h⟩ := by
  unfold pickR padCol
  rw [dif_pos ⟨by rw [rowR_of_lt h]; omega, by rw [rowR_of_lt h]; omega⟩]
  exact congrArg col (Fin.ext (by show rowR w - 1 = w.toNat; rw [rowR_of_lt h]; omega))

/-- The reference's slot at the padding is the zero row. -/
theorem pickR_pad (col : Fin 128 → EReal) : pickR col 4294967295#32 = 0 := by
  unfold pickR padCol
  rw [dif_neg (by rw [rowR_pad]; omega)]
  simp

/-- On a word in range the two slots agree. -/
theorem pick_eq_pickR (col : Fin 128 → EReal) {w : BitVec 32} (h : InRange w) : pick col w = pickR col w := by
  rcases h with rfl | h
  · rw [pick_pad, pickR_pad]
  · rw [pick_of_lt col h, pickR_of_lt col h]

/-! ## The maximum and the count -/

/-- The f32 pattern of -∞ is the bottom of the extended reals. -/
theorem ofBits_neg_inf : Ideal.ofBits .f32 0xFF800000#32 = ⊥ := by
  simp [Ideal.ofBits, Ideal.ieee]

/-- The fold of max from -∞ over nine entries is the left-nested maximum of entries 1 … 8, then entry 0. -/
theorem fold_nine (g : Fin 9 → EReal) :
    (Finset.univ : Finset (Fin 9)).fold max ⊥ g
      = max (max (max (max (max (max (max (max (g 1) (g 2)) (g 3)) (g 4)) (g 5)) (g 6)) (g 7)) (g 8)) (g 0) := by
  apply le_antisymm
  · rw [Finset.fold_max_le]
    refine ⟨bot_le, fun k _ => ?_⟩
    fin_cases k <;> simp [le_max_iff]
  · have hk : ∀ k : Fin 9, g k ≤ (Finset.univ : Finset (Fin 9)).fold max ⊥ g := fun k =>
      (Finset.le_fold_max (g k)).2 (Or.inr ⟨k, Finset.mem_univ _, le_rfl⟩)
    simp only [max_le_iff]
    exact ⟨⟨⟨⟨⟨⟨⟨⟨hk 1, hk 2⟩, hk 3⟩, hk 4⟩, hk 5⟩, hk 6⟩, hk 7⟩, hk 8⟩, hk 0⟩

variable (col : Fin 128 → EReal) (ws : Fin 8 → BitVec 32) (a : Fin 128)
/-- Entry 0 of the nine is the atom's own; entry j + 1 is slot j's. -/
theorem nine_0 : nine col ws a 0 = col a := by
  unfold nine; rw [dif_pos (by decide)]
theorem nine_at (j : Fin 8) (k : Fin 9) (hk : k.val = j.val + 1) : nine col ws a k = pickR col (ws j) := by
  unfold nine
  rw [dif_neg (by omega)]
  exact congrArg (fun x => pickR col (ws x)) (Fin.ext (by show k.val - 1 = j.val; omega))
theorem nine_1 : nine col ws a 1 = pickR col (ws 0) := nine_at col ws a 0 1 (by decide)
theorem nine_2 : nine col ws a 2 = pickR col (ws 1) := nine_at col ws a 1 2 (by decide)
theorem nine_3 : nine col ws a 3 = pickR col (ws 2) := nine_at col ws a 2 3 (by decide)
theorem nine_4 : nine col ws a 4 = pickR col (ws 3) := nine_at col ws a 3 4 (by decide)
theorem nine_5 : nine col ws a 5 = pickR col (ws 4) := nine_at col ws a 4 5 (by decide)
theorem nine_6 : nine col ws a 6 = pickR col (ws 5) := nine_at col ws a 5 6 (by decide)
theorem nine_7 : nine col ws a 7 = pickR col (ws 6) := nine_at col ws a 6 7 (by decide)
theorem nine_8 : nine col ws a 8 = pickR col (ws 7) := nine_at col ws a 7 8 (by decide)

theorem degK_eq_degR : degK ws = degR ws := by
  unfold degK degR
  rw [Fin.sum_univ_eight]
  simp only [live_eq_liveU, add_assoc]

theorem maskK_eq_maskR : maskK ws = maskR ws := by
  unfold maskK maskR
  rw [bit_toInt, Int.cast_natCast, degK_eq_degR]
  rfl

/-- On edge words in range the two values are one. -/
theorem poolK_eq_poolR (h : ∀ d, InRange (ws d)) : poolK col ws a = poolR col ws a := by
  unfold poolK poolR
  rw [ofBits_neg_inf, fold_nine, maskK_eq_maskR, nine_0, nine_1, nine_2, nine_3, nine_4, nine_5, nine_6, nine_7, nine_8,
    pick_eq_pickR col (h 0), pick_eq_pickR col (h 1), pick_eq_pickR col (h 2), pick_eq_pickR col (h 3),
    pick_eq_pickR col (h 4), pick_eq_pickR col (h 5), pick_eq_pickR col (h 6), pick_eq_pickR col (h 7)]

theorem GK_eq_GR (x : SA.Idx → EReal) (e : SE.Idx → BitVec 32) (h : ∀ i, InRange (e i)) : GK x e = GR x e :=
  funext fun i => poolK_eq_poolR _ _ _ fun d => h _

end Cert.Pool

end
-- ==== Proof.KPay.lean ====
/-
  The kernel body's one store, read at one element. The body loads the atoms' block `v0` (16 samples × 128 atoms × 256
  features) and the edges' block `v1` (16 × 128 × 8), and stores, at (b, a, f), the pooled value of sample b's column
  of feature f at atom a (`Cert.Pool.poolK`): per slot d the one-hot row of `max e 0` times the column (a batched
  product contracted over the 128 atoms, the batch axis the sample), times the bit "e is not padding"; the running
  maximum over the slots, then the atom's own entry; times the bit "some slot is live".
-/
import proofs.«416072_j52072183497147_1_alg».proof.Proof.Gen.KernelIdeal.Skeleton
import proofs.«416072_j52072183497147_1_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The value the body stores, as one function of the two loaded blocks. -/
def body {F : FTy → Type} [FloatOps F] (v0 : Vec F S16x128x256 .f32) (v1 : Vec F S16x128x8 .i32) : FVec F S16x128x256 .f32 :=
  k0_pay1 v0 v1 (k0_pay2 v0) (iota .tc S1x128x128 32 [2] iota_S1x128x128_d2_w32) (k0_pay23 v1 (k0_pay2 v0) (iota .tc S1x128x128 32 [2] iota_S1x128x128_d2_w32) (k0_pay13 v1 (k0_pay2 v0) (iota .tc S1x128x128 32 [2] iota_S1x128x128_d2_w32) (k0_pay7 v0 v1)) (k0_pay16 v1) (k0_pay17 v1 (iota .tc S1x128x128 32 [2] iota_S1x128x128_d2_w32))) (k0_pay24 v1 (k0_pay14 v1 (k0_pay8 v1)) (k0_pay16 v1))

section Slots
variable {F : FTy → Type} [FloatOps F]

/-- Slot `off 2`'s edge words of the block, as a 16 × 128 matrix (samples × atoms). -/
def slotW (off : Fin 3 → Nat) (hs : S16x128x8.Slices off S16x128x1) (v1 : Vec F S16x128x8 .i32) : IVec S16x128 32 :=
  shapeCast S16x128 (extractStridedSlice S16x128x1 off v1 hs) shapeCasts_S16x128x1_S16x128

/-- The slot's live bits as numbers, a 16 × 128 × 1 column per sample. -/
def slotLive (off : Fin 3 → Nat) (hs : S16x128x8.Slices off S16x128x1) (v1 : Vec F S16x128x8 .i32) : FVec F S16x128x1 .f32 :=
  shapeCast S16x128x1 (sitofp .f32 (extui 32 (cmpi .ne (slotW off hs v1) (broadcast S16x128 4294967295#32)) natLt_1_32))
    shapeCasts_S16x128_S16x128x1

/-- The slot's one-hot rows: per sample and atom, the bit "`max e 0` is the position", over the 128 positions. -/
def slotHot (off : Fin 3 → Nat) (hs : S16x128x8.Slices off S16x128x1) (v1 : Vec F S16x128x8 .i32) : FVec F S16x128x128 .bf16 :=
  truncf .bf16 (sitofp .f32 (extui 32 (cmpi .eq
    (broadcastTo S16x128x128 (shapeCast S16x128x1 (maxsi (slotW off hs v1) (broadcast S16x128 0#32)) shapeCasts_S16x128_S16x128x1)
      broadcasts_S16x128x1_S16x128x128)
    (broadcastTo S16x128x128 (iota .tc S1x128x128 32 [2] iota_S1x128x128_d2_w32) broadcasts_S1x128x128_S16x128x128)) natLt_1_32))
    bitsLt_bf16_f32

/-- The slot's contribution: one-hot rows times the atoms (per sample), times the live bit. -/
def slotVal (off : Fin 3 → Nat) (hs : S16x128x8.Slices off S16x128x1) (v0 : Vec F S16x128x256 .f32) (v1 : Vec F S16x128x8 .i32) :
    FVec F S16x128x256 .f32 :=
  mulf (matmul dot_S16x128x128_S16x128x256_S16x128x256_2_1_1_2_0_0 none (slotHot off hs v1) (truncf .bf16 v0 bitsLt_bf16_f32)
      (constant S16x128x256 .f32 0x00000000#32))
    (broadcastTo S16x128x256 (slotLive off hs v1) broadcasts_S16x128x1_S16x128x256)

/-- The body's store over the eight slots: the running maximum, the atom's own entry, the mask of the live count. -/
theorem body_eq_slots (v0 : Vec F S16x128x256 .f32) (v1 : Vec F S16x128x8 .i32) :
    body v0 v1 = mulf (maximumf (maximumf (maximumf (maximumf (maximumf (maximumf (maximumf (maximumf (slotVal ![0, 0, 0] slices_S16x128x8_o0_0_0_S16x128x1 v0 v1) (slotVal ![0, 0, 1] slices_S16x128x8_o0_0_1_S16x128x1 v0 v1)) (slotVal ![0, 0, 2] slices_S16x128x8_o0_0_2_S16x128x1 v0 v1)) (slotVal ![0, 0, 3] slices_S16x128x8_o0_0_3_S16x128x1 v0 v1)) (slotVal ![0, 0, 4] slices_S16x128x8_o0_0_4_S16x128x1 v0 v1)) (slotVal ![0, 0, 5] slices_S16x128x8_o0_0_5_S16x128x1 v0 v1)) (slotVal ![0, 0, 6] slices_S16x128x8_o0_0_6_S16x128x1 v0 v1)) (slotVal ![0, 0, 7] slices_S16x128x8_o0_0_7_S16x128x1 v0 v1)) v0)
      (broadcastTo S16x128x256 (sitofp .f32 (extui 32 (cmpf .one (addf (addf (addf (addf (addf (addf (addf (addf (broadcast S16x128x1 (Scalar.ofBits .f32 0x00000000#32)) (slotLive ![0, 0, 0] slices_S16x128x8_o0_0_0_S16x128x1 v1)) (slotLive ![0, 0, 1] slices_S16x128x8_o0_0_1_S16x128x1 v1)) (slotLive ![0, 0, 2] slices_S16x128x8_o0_0_2_S16x128x1 v1)) (slotLive ![0, 0, 3] slices_S16x128x8_o0_0_3_S16x128x1 v1)) (slotLive ![0, 0, 4] slices_S16x128x8_o0_0_4_S16x128x1 v1)) (slotLive ![0, 0, 5] slices_S16x128x8_o0_0_5_S16x128x1 v1)) (slotLive ![0, 0, 6] slices_S16x128x8_o0_0_6_S16x128x1 v1)) (slotLive ![0, 0, 7] slices_S16x128x8_o0_0_7_S16x128x1 v1))
        (broadcast S16x128x1 (Scalar.ofBits .f32 0x00000000#32))) natLt_1_32)) broadcasts_S16x128x1_S16x128x256) := rfl

end Slots

section AtIndex
open Cert.Pool

variable {α : Type}

/-- A 16 × 128 matrix viewed as 16 × 128 × 1 reads (b, a, 0) at (b, a). -/
theorem cast_col (v : S16x128.Idx → α) (b : Fin 16) (a : Fin 128) (z : Fin 1) :
    shapeCast S16x128x1 v shapeCasts_S16x128_S16x128x1 (ix3 b a z) = v (ix2 b a) := by
  refine shapeCast_apply v _ (ix3 b a z) (ix2 b a) ?_
  rw [Shape.rowMajor_val_two, Shape.rowMajor_val_three]
  have := z.isLt
  show b.val * 128 + a.val = (b.val * 128 + a.val) * 1 + z.val
  omega

/-- A 16 × 128 × 1 column block viewed as a 16 × 128 matrix reads (b, a) at (b, a, 0). -/
theorem cast_mat (v : S16x128x1.Idx → α) (b : Fin 16) (a : Fin 128) :
    shapeCast S16x128 v shapeCasts_S16x128x1_S16x128 (ix2 b a) = v (ix3 b a (0 : Fin 1)) := by
  refine shapeCast_apply v _ (ix2 b a) (ix3 b a (0 : Fin 1)) ?_
  rw [Shape.rowMajor_val_two, Shape.rowMajor_val_three]
  show (b.val * 128 + a.val) * 1 + 0 = b.val * 128 + a.val
  omega

/-- A 16 × 128 × 1 column spread over 128 positions reads (b, a, k) at (b, a, 0). -/
theorem spread128 (v : S16x128x1.Idx → α) (b : Fin 16) (a : Fin 128) (k : Fin 128) :
    broadcastTo S16x128x128 v broadcasts_S16x128x1_S16x128x128 (ix3 b a k) = v (ix3 b a (0 : Fin 1)) :=
  broadcastTo_apply v _ (ix3 b a k) (ix3 b a (0 : Fin 1)) fun x => by
    match x with
    | ⟨0, _⟩ => show b.val = if (16 : Nat) = 1 then 0 else b.val; rw [if_neg (by decide)]
    | ⟨1, _⟩ => show a.val = if (128 : Nat) = 1 then 0 else a.val; rw [if_neg (by decide)]
    | ⟨2, _⟩ => show 0 = if (1 : Nat) = 1 then 0 else k.val; rw [if_pos rfl]

/-- A 16 × 128 × 1 column spread over 256 features reads (b, a, f) at (b, a, 0). -/
theorem spread256 (v : S16x128x1.Idx → α) (b : Fin 16) (a : Fin 128) (f : Fin 256) :
    broadcastTo S16x128x256 v broadcasts_S16x128x1_S16x128x256 (ix3 b a f) = v (ix3 b a (0 : Fin 1)) :=
  broadcastTo_apply v _ (ix3 b a f) (ix3 b a (0 : Fin 1)) fun x => by
    match x with
    | ⟨0, _⟩ => show b.val = if (16 : Nat) = 1 then 0 else b.val; rw [if_neg (by decide)]
    | ⟨1, _⟩ => show a.val = if (128 : Nat) = 1 then 0 else a.val; rw [if_neg (by decide)]
    | ⟨2, _⟩ => show 0 = if (1 : Nat) = 1 then 0 else f.val; rw [if_pos rfl]

/-- The position table spread over the 16 samples reads (b, a, k) at (0, a, k). -/
theorem spreadPos (v : S1x128x128.Idx → α) (b : Fin 16) (a : Fin 128) (k : Fin 128) :
    broadcastTo S16x128x128 v broadcasts_S1x128x128_S16x128x128 (ix3 b a k) = v (ix3 (0 : Fin 1) a k) :=
  broadcastTo_apply v _ (ix3 b a k) (ix3 (0 : Fin 1) a k) fun x => by
    match x with
    | ⟨0, _⟩ => show 0 = if (1 : Nat) = 1 then 0 else b.val; rw [if_pos rfl]
    | ⟨1, _⟩ => show a.val = if (128 : Nat) = 1 then 0 else a.val; rw [if_neg (by decide)]
    | ⟨2, _⟩ => show k.val = if (128 : Nat) = 1 then 0 else k.val; rw [if_neg (by decide)]

/-- Slot d's word matrix at (b, a) is the block's edge word (b, a, d). -/
theorem slotW_apply (off : Fin 3 → Nat) (hs : S16x128x8.Slices off S16x128x1) (d : Fin 8) (hoff : off = ![0, 0, d.val])
    (v1 : Vec Ideal S16x128x8 .i32) (b : Fin 16) (a : Fin 128) : slotW off hs v1 (ix2 b a) = v1 (ix3 b a d) := by
  subst hoff
  unfold slotW
  rw [cast_mat]
  refine extractStridedSlice_apply _ v1 hs (ix3 b a (0 : Fin 1)) (ix3 b a d) fun x => ?_
  match x with
  | ⟨0, _⟩ => show b.val = 0 + b.val; omega
  | ⟨1, _⟩ => show a.val = 0 + a.val; omega
  | ⟨2, _⟩ => show d.val = d.val + 0; omega

/-- Slot d's live column at (b, a, 0) is the live bit of edge word (b, a, d). -/
theorem slotLive_apply (off : Fin 3 → Nat) (hs : S16x128x8.Slices off S16x128x1) (d : Fin 8) (hoff : off = ![0, 0, d.val])
    (v1 : Vec Ideal S16x128x8 .i32) (b : Fin 16) (a : Fin 128) (z : Fin 1) :
    slotLive off hs v1 (ix3 b a z) = live (v1 (ix3 b a d)) := by
  unfold slotLive
  rw [cast_col]
  show (((BitVec.setWidth 32 (IntOp.cmpi .ne (slotW off hs v1 (ix2 b a)) 4294967295#32)).toInt : ℝ) : EReal) = _
  rw [slotW_apply off hs d hoff]
  rfl

/-- Slot d's one-hot row of (b, a) at position k is the one-hot entry of edge word (b, a, d). -/
theorem slotHot_apply (off : Fin 3 → Nat) (hs : S16x128x8.Slices off S16x128x1) (d : Fin 8) (hoff : off = ![0, 0, d.val])
    (v1 : Vec Ideal S16x128x8 .i32) (b : Fin 16) (a : Fin 128) (k : Fin 128) :
    slotHot off hs v1 (ix3 b a k) = hot (v1 (ix3 b a d)) k := by
  unfold slotHot
  show (((BitVec.setWidth 32 (IntOp.cmpi .eq
      (broadcastTo S16x128x128 (shapeCast S16x128x1 (maxsi (slotW off hs v1) (broadcast S16x128 0#32)) shapeCasts_S16x128_S16x128x1)
        broadcasts_S16x128x1_S16x128x128 (ix3 b a k))
      (broadcastTo S16x128x128 (iota .tc S1x128x128 32 [2] iota_S1x128x128_d2_w32) broadcasts_S1x128x128_S16x128x128 (ix3 b a k)))).toInt : ℝ) : EReal) = _
  rw [spread128, cast_col, spreadPos, iota_single_apply]
  show (((BitVec.setWidth 32 (IntOp.cmpi .eq (IntOp.maxsi (slotW off hs v1 (ix2 b a)) 0#32) (BitVec.ofNat 32 k.val))).toInt : ℝ) : EReal) = _
  rw [slotW_apply off hs d hoff]
  rfl

abbrev dotB := dot_S16x128x128_S16x128x256_S16x128x256_2_1_1_2_0_0

theorem lhs_dot_0 (i : S16x128x256.Idx) (q : dot_S16x128x128_S16x128x256_S16x128x256_2_1_1_2_0_0.contr.Idx) :
    (dot_S16x128x128_S16x128x256_S16x128x256_2_1_1_2_0_0.lhsIdx i q 0).val = (i 0).val := by
  unfold DotDims.lhsIdx
  rw [dif_pos (show (0 : Fin S16x128x128.rank) ∈ dot_S16x128x128_S16x128x256_S16x128x256_2_1_1_2_0_0.lhsBatch by decide)]
  rfl
theorem lhs_dot_1 (i : S16x128x256.Idx) (q : dot_S16x128x128_S16x128x256_S16x128x256_2_1_1_2_0_0.contr.Idx) :
    (dot_S16x128x128_S16x128x256_S16x128x256_2_1_1_2_0_0.lhsIdx i q 1).val = (i 1).val := by
  unfold DotDims.lhsIdx
  rw [dif_neg (show ¬(1 : Fin S16x128x128.rank) ∈ dot_S16x128x128_S16x128x256_S16x128x256_2_1_1_2_0_0.lhsBatch by decide),
    dif_pos (show (1 : Fin S16x128x128.rank) ∈ dot_S16x128x128_S16x128x256_S16x128x256_2_1_1_2_0_0.lhsNonContracting by decide)]
  rfl
theorem lhs_dot_2 (i : S16x128x256.Idx) (q : dot_S16x128x128_S16x128x256_S16x128x256_2_1_1_2_0_0.contr.Idx) :
    (dot_S16x128x128_S16x128x256_S16x128x256_2_1_1_2_0_0.lhsIdx i q 2).val = (q ⟨0, by decide⟩).val :=
  dot_S16x128x128_S16x128x256_S16x128x256_2_1_1_2_0_0.lhsIdx_val_of_single rfl i q
theorem rhs_dot_0 (i : S16x128x256.Idx) (q : dot_S16x128x128_S16x128x256_S16x128x256_2_1_1_2_0_0.contr.Idx) :
    (dot_S16x128x128_S16x128x256_S16x128x256_2_1_1_2_0_0.rhsIdx i q 0).val = (i 0).val := by
  unfold DotDims.rhsIdx
  rw [dif_pos (show (0 : Fin S16x128x256.rank) ∈ dot_S16x128x128_S16x128x256_S16x128x256_2_1_1_2_0_0.rhsBatch by decide)]
  rfl
theorem rhs_dot_1 (i : S16x128x256.Idx) (q : dot_S16x128x128_S16x128x256_S16x128x256_2_1_1_2_0_0.contr.Idx) :
    (dot_S16x128x128_S16x128x256_S16x128x256_2_1_1_2_0_0.rhsIdx i q 1).val = (q ⟨0, by decide⟩).val :=
  dot_S16x128x128_S16x128x256_S16x128x256_2_1_1_2_0_0.rhsIdx_val_of_single rfl i q
theorem rhs_dot_2 (i : S16x128x256.Idx) (q : dot_S16x128x128_S16x128x256_S16x128x256_2_1_1_2_0_0.contr.Idx) :
    (dot_S16x128x128_S16x128x256_S16x128x256_2_1_1_2_0_0.rhsIdx i q 2).val = (i 2).val := by
  unfold DotDims.rhsIdx
  rw [dif_neg (show ¬(2 : Fin S16x128x256.rank) ∈ dot_S16x128x128_S16x128x256_S16x128x256_2_1_1_2_0_0.rhsBatch by decide),
    dif_pos (show (2 : Fin S16x128x256.rank) ∈ dot_S16x128x128_S16x128x256_S16x128x256_2_1_1_2_0_0.rhsNonContracting by decide)]
  rfl

/-- The batched product into a zero accumulator, at (b, a, f): the sum over the 128 positions of the left row's entry
    times the right column's, both of sample b. -/
theorem product_apply (lhs : FVec Ideal S16x128x128 .bf16) (rhs : FVec Ideal S16x128x256 .bf16) (b : Fin 16) (a : Fin 128) (f : Fin 256) :
    matmul dot_S16x128x128_S16x128x256_S16x128x256_2_1_1_2_0_0 none lhs rhs (constant S16x128x256 .f32 0x00000000#32) (ix3 b a f)
      = ∑ k : Fin 128, lhs (ix3 b a k) * rhs (ix3 b k f) := by
  show FloatOps.matmul dot_S16x128x128_S16x128x256_S16x128x256_2_1_1_2_0_0 none lhs rhs (constant S16x128x256 .f32 0x00000000#32) (ix3 b a f) = _
  rw [Ideal.matmul_constant_zero_apply, ← Equiv.sum_comp (contrEquiv1 dot_S16x128x128_S16x128x256_S16x128x256_2_1_1_2_0_0 128 rfl rfl).symm]
  refine Finset.sum_congr rfl fun k _ => ?_
  have hk := contrEquiv1_symm_val dot_S16x128x128_S16x128x256_S16x128x256_2_1_1_2_0_0 128 rfl rfl k
  have el : dot_S16x128x128_S16x128x256_S16x128x256_2_1_1_2_0_0.lhsIdx (ix3 b a f)
      ((contrEquiv1 dot_S16x128x128_S16x128x256_S16x128x256_2_1_1_2_0_0 128 rfl rfl).symm k) = ix3 b a k :=
    funext fun x => Fin.ext (by
      match x with
      | ⟨0, _⟩ => exact lhs_dot_0 _ _
      | ⟨1, _⟩ => exact lhs_dot_1 _ _
      | ⟨2, _⟩ => exact (lhs_dot_2 _ _).trans hk)
  have er : dot_S16x128x128_S16x128x256_S16x128x256_2_1_1_2_0_0.rhsIdx (ix3 b a f)
      ((contrEquiv1 dot_S16x128x128_S16x128x256_S16x128x256_2_1_1_2_0_0 128 rfl rfl).symm k) = ix3 b k f :=
    funext fun x => Fin.ext (by
      match x with
      | ⟨0, _⟩ => exact rhs_dot_0 _ _
      | ⟨1, _⟩ => exact (rhs_dot_1 _ _).trans hk
      | ⟨2, _⟩ => exact rhs_dot_2 _ _)
  rw [el, er]

/-- Slot d's contribution at (b, a, f): the kernel's pick of edge word (b, a, d) from sample b's column of feature f. -/
theorem slotVal_apply (off : Fin 3 → Nat) (hs : S16x128x8.Slices off S16x128x1) (d : Fin 8) (hoff : off = ![0, 0, d.val])
    (v0 : Vec Ideal S16x128x256 .f32) (v1 : Vec Ideal S16x128x8 .i32) (b : Fin 16) (a : Fin 128) (f : Fin 256) :
    slotVal off hs v0 v1 (ix3 b a f) = pick (fun k => v0 (ix3 b k f)) (v1 (ix3 b a d)) := by
  unfold slotVal
  rw [mulf_apply, product_apply, spread256, slotLive_apply off hs d hoff]
  unfold pick
  refine congrArg (· * live (v1 (ix3 b a d))) (Finset.sum_congr rfl fun k _ => ?_)
  rw [slotHot_apply off hs d hoff]
  rfl

end AtIndex

/-- At (b, a, f) the stored value pools sample b's column of feature f at atom a over the atom's eight edge words. -/
theorem body_apply (v0 : Vec Ideal S16x128x256 .f32) (v1 : Vec Ideal S16x128x8 .i32) (b : Fin 16) (a : Fin 128) (f : Fin 256) :
    body v0 v1 (ix3 b a f) = Cert.Pool.poolK (fun k => v0 (ix3 b k f)) (fun d => v1 (ix3 b a d)) a := by
  rw [body_eq_slots]
  simp only [mulf_apply, maximumf_apply]
  rw [slotVal_apply ![0, 0, 0] slices_S16x128x8_o0_0_0_S16x128x1 0 rfl,
    slotVal_apply ![0, 0, 1] slices_S16x128x8_o0_0_1_S16x128x1 1 rfl,
    slotVal_apply ![0, 0, 2] slices_S16x128x8_o0_0_2_S16x128x1 2 rfl,
    slotVal_apply ![0, 0, 3] slices_S16x128x8_o0_0_3_S16x128x1 3 rfl,
    slotVal_apply ![0, 0, 4] slices_S16x128x8_o0_0_4_S16x128x1 4 rfl,
    slotVal_apply ![0, 0, 5] slices_S16x128x8_o0_0_5_S16x128x1 5 rfl,
    slotVal_apply ![0, 0, 6] slices_S16x128x8_o0_0_6_S16x128x1 6 rfl,
    slotVal_apply ![0, 0, 7] slices_S16x128x8_o0_0_7_S16x128x1 7 rfl,
    spread256]
  simp only [sitofp_apply, extui_apply, cmpf_apply, addf_apply, broadcast_apply]
  rw [slotLive_apply ![0, 0, 0] slices_S16x128x8_o0_0_0_S16x128x1 0 rfl,
    slotLive_apply ![0, 0, 1] slices_S16x128x8_o0_0_1_S16x128x1 1 rfl,
    slotLive_apply ![0, 0, 2] slices_S16x128x8_o0_0_2_S16x128x1 2 rfl,
    slotLive_apply ![0, 0, 3] slices_S16x128x8_o0_0_3_S16x128x1 3 rfl,
    slotLive_apply ![0, 0, 4] slices_S16x128x8_o0_0_4_S16x128x1 4 rfl,
    slotLive_apply ![0, 0, 5] slices_S16x128x8_o0_0_5_S16x128x1 5 rfl,
    slotLive_apply ![0, 0, 6] slices_S16x128x8_o0_0_6_S16x128x1 6 rfl,
    slotLive_apply ![0, 0, 7] slices_S16x128x8_o0_0_7_S16x128x1 7 rfl]
  rfl

end Cert.KernelIdeal.Pay

end
-- ==== Proof.KArray.lean ====
/-
  From blocks to the array. Grid point `t` of the 8 stages samples `16 t … 16 t + 15` of the atoms and of the edges and
  writes back the same samples of the result; the body's stored value at (b, a, f) depends only on sample b's column
  of feature f and on atom a's edge words, so what point `t` writes back is block `t` of the one array `Cert.Pool.GK`
  of the whole atoms and edges, and the eight blocks cover the result (sample `r` lies in block `r / 16`).
-/
import proofs.«416072_j52072183497147_1_alg».proof.Proof.Gen.KernelIdeal.Value
import proofs.«416072_j52072183497147_1_alg».proof.Proof.KPay
import proofs.«416072_j52072183497147_1_alg».proof.Proof.Spec
import Idealize.ShloMosaic.Lib.ValueIdx
import Idealize.ShloMosaic.Lib.Pipeline.Value

noncomputable section

namespace Cert.KernelIdeal.Arr

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The whole-block rectangle sits at the zero offset. -/
theorem zero_off : (![0, 0, 0] : Fin 3 → Nat) = fun _ => 0 := funext fun a => by fin_cases a <;> rfl

/-- The index maps over the 8 grid points: at point t the atoms', the edges' and the result's windows all sit at
    block (t, 0, 0). -/
theorem index_at : ∀ t : Fin cfg0.N, t.val < 8
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Block t of the atoms at (bb, k, f) is the atoms' array at sample 16 t + bb. -/
theorem atoms_blk (c : Dev nD) (t : Fin cfg0.N) (bb : Fin 16) (k : Fin 128) (f : Fin 256) (r : Fin 128)
    (hr : r.val = 16 * t.val + bb.val) :
    (iblk m c 0 t : Vec Ideal S16x128x256 .f32) (ix3 bb k f)
      = (m ((c : Thread nD τ).loc main_arg0) : S128x128x256.Idx → Elt Ideal .f32) (ix3 r k f) := by
  obtain ⟨-, e0, e1, e2, -⟩ := index_at t
  unfold iblk
  rw [View.read_apply]
  show V m c main_arg0 _ = m ((c : Thread nD τ).loc main_arg0) _
  unfold V
  congr 1
  funext a
  apply Fin.ext
  match a with
  | ⟨0, _⟩ => show win0_0.index t (0 : Fin 3) * 16 + 1 * bb.val = r.val; omega
  | ⟨1, _⟩ => show win0_0.index t (1 : Fin 3) * 128 + 1 * k.val = k.val; omega
  | ⟨2, _⟩ => show win0_0.index t (2 : Fin 3) * 256 + 1 * f.val = f.val; omega

/-- Block t of the edges at (bb, a, d) is the edges' array at sample 16 t + bb. -/
theorem edges_blk (c : Dev nD) (t : Fin cfg0.N) (bb : Fin 16) (a : Fin 128) (d : Fin 8) (r : Fin 128)
    (hr : r.val = 16 * t.val + bb.val) :
    (iblk m c 1 t : Vec Ideal S16x128x8 .i32) (ix3 bb a d)
      = (m ((c : Thread nD τ).loc main_arg2) : S128x128x8.Idx → Elt Ideal .i32) (ix3 r a d) := by
  obtain ⟨-, -, -, -, e0, e1, e2, -⟩ := index_at t
  unfold iblk
  rw [View.read_apply]
  show V m c main_arg2 _ = m ((c : Thread nD τ).loc main_arg2) _
  unfold V
  congr 1
  funext x
  apply Fin.ext
  match x with
  | ⟨0, _⟩ => show win0_1.index t (0 : Fin 3) * 16 + 1 * bb.val = r.val; omega
  | ⟨1, _⟩ => show win0_1.index t (1 : Fin 3) * 128 + 1 * a.val = a.val; omega
  | ⟨2, _⟩ => show win0_1.index t (2 : Fin 3) * 8 + 1 * d.val = d.val; omega

/-- What the body stores at (bb, a, f) of block t is the pooled array at sample 16 t + bb. -/
theorem stored_eq (c : Dev nD) (t : Fin cfg0.N) (bb : Fin 16) (a : Fin 128) (f : Fin 256) (r : Fin 128)
    (hr : r.val = 16 * t.val + bb.val) :
    Pay.body (iblk m c 0 t) (iblk m c 1 t) (ix3 bb a f)
      = Cert.Pool.GK (m ((c : Thread nD τ).loc main_arg0)) (m ((c : Thread nD τ).loc main_arg2)) (ix3 r a f) := by
  rw [Pay.body_apply]
  show _ = Cert.Pool.poolK (fun k => m ((c : Thread nD τ).loc main_arg0) (ix3 r k f))
    (fun d => m ((c : Thread nD τ).loc main_arg2) (ix3 r a d)) a
  congr 1
  · funext k; exact atoms_blk m c t bb k f r hr
  · funext d; exact edges_blk m c t bb a d r hr

/-- The result window's store is one piece, the whole block, holding the body's value of the two loaded blocks. -/
theorem out_eq (x0 : Vec Ideal S16x128x256 .f32) (x1 : Vec Ideal S16x128x8 .i32) : out0_2 x0 x1 = Pay.body x0 x1 := by
  show View.canon [(⟨r0_0, Pay.body (View.ld x0 r0_0) (View.ld x1 r0_1)⟩ : View.Piece (Elt Ideal) S16x128x256 .f32)] = _
  rw [View.canon_unit_zero zero_off]
  simp only [View.ld_unit_zero (S := S16x128x256) zero_off, View.ld_unit_zero (S := S16x128x8) zero_off]

/-- What grid point t writes back is block t of the pooled array of the whole atoms and edges. -/
theorem flushed_eq (c : Dev nD) (t : Fin cfg0.N) :
    (dats m 0 c).flushed 2 t = ((cfg0.win 2).blk t).view.read (Elt Ideal)
      (Cert.Pool.GK (m ((c : Thread nD τ).loc main_arg0)) (m ((c : Thread nD τ).loc main_arg2))) := by
  rw [Value.flushed2, out_eq]
  obtain ⟨hN, -, -, -, -, -, -, e0, e1, e2⟩ := index_at t
  funext y
  obtain ⟨bb, a, f, rfl⟩ : ∃ (bb : Fin 16) (a : Fin 128) (f : Fin 256), y = ix3 bb a f := ⟨y 0, y 1, y 2, eq_ix3 y⟩
  have hb : bb.val < 16 := bb.isLt
  show Pay.body (iblk m c 0 t) (iblk m c 1 t) (ix3 bb a f)
    = Cert.Pool.GK (m ((c : Thread nD τ).loc main_arg0)) (m ((c : Thread nD τ).loc main_arg2))
        (((cfg0.win 2).blk t).view.emb (ix3 bb a f))
  have hi : ((cfg0.win 2).blk t).view.emb (ix3 bb a f)
      = (ix3 (⟨16 * t.val + bb.val, by omega⟩ : Fin 128) a f : S128x128x256.Idx) := by
    funext x
    apply Fin.ext
    match x with
    | ⟨0, _⟩ => show win0_2.index t (0 : Fin 3) * 16 + 1 * bb.val = 16 * t.val + bb.val; omega
    | ⟨1, _⟩ => show win0_2.index t (1 : Fin 3) * 128 + 1 * a.val = a.val; omega
    | ⟨2, _⟩ => show win0_2.index t (2 : Fin 3) * 256 + 1 * f.val = f.val; omega
  rw [hi]
  exact stored_eq m c t bb a f _ rfl

/-- An index of the result array is in point t's block iff each coordinate is in the block's range on its axis. -/
theorem mem_blk (t : Fin cfg0.N) (i : S128x128x256.Idx) :
    i ∈ ((cfg0.win 2).blk t).view.set ↔ ∀ a : Fin 3, win0_2.index t a * S16x128x256.size a ≤ (i a).val
      ∧ (i a).val < win0_2.index t a * S16x128x256.size a + S16x128x256.size a := by
  show i ∈ ((View.whole main_v0).slice (win0_2.rect t)).set ↔ _
  rw [View.set_slice_whole, Rect.mem_set_unit]
  exact Iff.rfl

/-- The eight blocks cover the result array: sample r lies in block r / 16. -/
theorem cover (i : S128x128x256.Idx) :
    ∃ t : Fin cfg0.N, (cfg0.win 2).flush t = true ∧ i ∈ ((cfg0.win 2).blk t).view.set := by
  have h0 : (i 0).val < 128 := (i 0).isLt
  have h1 : (i 1).val < 128 := (i 1).isLt
  have h2 : (i 2).val < 256 := (i 2).isLt
  let t : Fin cfg0.N := ⟨(i 0).val / 16, by rw [show cfg0.N = 8 from N_0]; omega⟩
  have ht : t.val = (i 0).val / 16 := rfl
  obtain ⟨-, -, -, -, -, -, -, e0, e1, e2⟩ := index_at t
  refine ⟨t, flush0_2 t, ?_⟩
  rw [mem_blk]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-- The result array after the run is the pooled array of the atoms and the edges as launched. -/
theorem final (c : Dev nD) : (dats m 0 c).arrAt 2 cfg0.N
    = Cert.Pool.GK (m ((c : Thread nD τ).loc main_arg0)) (m ((c : Thread nD τ).loc main_arg2)) :=
  (dats m 0 c).arrAt_eq_of_cover 2 (Cert.Pool.GK (m ((c : Thread nD τ).loc main_arg0)) (m ((c : Thread nD τ).loc main_arg2)))
    (fun t _ => flushed_eq m c t) cover

/-- The kernel's run: the result array ends at `Cert.Pool.GK` of the atoms and the edges as launched, the arguments unchanged. -/
theorem run : θ_run defs (onTc (τ := τ) (main (F := Ideal))) ⟨m, fun _ => 0, ρ⟩ fun r => ∀ c : Dev nD,
      r.2.mem ((c : Thread nD τ).loc main_v0) = Cert.Pool.GK (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Arr

end
-- ==== Proof.RefVal.lean ====
/-
  The reference's result, read at one element. Entry (b, a, f) of the reference's result is the maximum, folded from
  `-∞` over nine entries — atom a's own entry of sample b's column of feature f, then for each of the eight slots the
  row `e + 1` (a negative row wrapped, the row clamped) of that column with a zero row put in front — times the bit
  "the number of slots that are not padding is not zero": `Cert.Pool.poolR` of the column and the atom's edge words.
-/
import proofs.«416072_j52072183497147_1_alg».proof.Proof.RefRead
import proofs.«416072_j52072183497147_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-- The mask at (b, a, f): the bit "zero plus the sum of atom a's eight unsigned slot bits is not zero", read unsigned. -/
theorem mask_eq (x2 : (⟨S128x128x8, .i32⟩ : BufTy).Contents (Elt Ideal)) (b a : Fin 128) (f : Fin 256) :
    val_main_v21 (F := Ideal) x2 (ix3 b a f) = Cert.Pool.maskR (fun d => x2 (ix3 b a d)) := by
  rw [val_main_v21_apply, val_main_v20_apply, val_main_v19_apply, val_main_v17_apply, val_main_v18_apply,
    val_main_cst_5_apply, val_main_v16_apply, val_main_cst_4_apply]
  unfold Cert.Pool.maskR Cert.Pool.degR
  have hs : (∑ k : Fin 8, val_main_v15 (F := Ideal) x2 (idx_main_v16 (idx_main_v17 (idx_main_v21 (ix3 b a f))) k))
      = ∑ k : Fin 8, Cert.Pool.liveU ((fun d => x2 (ix3 b a d)) k) := by
    refine Finset.sum_congr rfl fun k _ => ?_
    rw [val_main_v15_apply, val_main_v14_apply, val_main_v13_apply, val_main_c_3_apply]
    have e : idx_main_v16 (idx_main_v17 (idx_main_v21 (ix3 b a f))) k = ix3 b a k :=
      funext fun c => Fin.ext (by match c with | ⟨0, _⟩ => rfl | ⟨1, _⟩ => rfl | ⟨2, _⟩ => rfl)
    rw [e]
    rfl
  rw [hs]
  rfl

/-- The padded atoms at (b, r, f), r below 129: row 0 is the zero word read signed, row r + 1 is the atoms' row r. -/
theorem pad_eq (x0 : (⟨S128x128x256, .f32⟩ : BufTy).Contents (Elt Ideal)) (b : Fin 128) (r : Fin 129) (f : Fin 256) :
    val_main_v2 (F := Ideal) x0 (ix3 b r f)
      = Cert.Pool.padCol (((0#32 : BitVec 32).toInt : ℝ) : EReal) (fun k => x0 (ix3 b k f)) r.val := by
  unfold val_main_v2 pad Cert.Pool.padCol
  by_cases hr : 1 ≤ r.val
  · have hr2 : r.val - 1 < 128 := by have := r.isLt; omega
    have hb := b.isLt
    have hf := f.isLt
    rw [dif_pos (fun a => by
      match a with
      | ⟨0, _⟩ =>
        refine ⟨?_, ?_, ?_⟩
        · show 0 ≤ b.val; omega
        · show (b.val - 0) % (0 + 1) = 0; omega
        · show (b.val - 0) / (0 + 1) < 128; omega
      | ⟨1, _⟩ =>
        refine ⟨?_, ?_, ?_⟩
        · show 1 ≤ r.val; omega
        · show (r.val - 1) % (0 + 1) = 0; omega
        · show (r.val - 1) / (0 + 1) < 128; omega
      | ⟨2, _⟩ =>
        refine ⟨?_, ?_, ?_⟩
        · show 0 ≤ f.val; omega
        · show (f.val - 0) % (0 + 1) = 0; omega
        · show (f.val - 0) / (0 + 1) < 256; omega)]
    rw [dif_pos ⟨hr, hr2⟩]
    refine congrArg x0 (funext fun a => Fin.ext ?_)
    match a with
    | ⟨0, _⟩ => show (b.val - 0) / (0 + 1) = b.val; omega
    | ⟨1, _⟩ => show (r.val - 1) / (0 + 1) = r.val - 1; omega
    | ⟨2, _⟩ => show (f.val - 0) / (0 + 1) = f.val; omega
  · rw [dif_neg (fun h => by
      have h1 := (h (1 : Fin 3)).1
      exact hr h1)]
    rw [dif_neg (fun h => hr h.1)]
    rfl

/-- Which element the gather reads at (b, a, d, f): sample b, feature f, and on axis 1 the start word at (b, a, d, 0)
    read signed and clamped into `0 … 128`. -/
theorem gather_idx (idx : IVec S128x128x8x1 32) (b a : Fin 128) (d : Fin 8) (f : Fin 256) :
    gather_S128x129x256_S128x128x8x1_S128x128x8x256_3_1_0_0_1_3_11256.operandIdx (ix4 b a d f) idx
      = ix3 b (⟨min (idx (ix4 b a d (0 : Fin 1))).toInt.toNat 128, by omega⟩ : Fin 129) f := by
  funext c
  apply Fin.ext
  match c with
  | ⟨0, _⟩ =>
    show 0 + b.val + 0 = b.val
    omega
  | ⟨1, _⟩ =>
    show min (idx _).toInt.toNat (129 - 1) + 0 + 0 = min (idx (ix4 b a d (0 : Fin 1))).toInt.toNat 128
    refine congrArg (fun q => min (idx q).toInt.toNat 128) (funext fun e => ?_)
    match e with
    | ⟨0, _⟩ => rfl
    | ⟨1, _⟩ => rfl
    | ⟨2, _⟩ => rfl
    | ⟨3, _⟩ => rfl
  | ⟨2, _⟩ =>
    show 0 + 0 + f.val = f.val
    omega

/-- The gathered entry at (b, a, d, f) is the reference's neighbour slot of sample b's column of feature f at the edge
    word (b, a, d): the start word is `e + 1`, plus 129 when that is negative. -/
theorem gather_eq (x0 : (⟨S128x128x256, .f32⟩ : BufTy).Contents (Elt Ideal)) (x2 : (⟨S128x128x8, .i32⟩ : BufTy).Contents (Elt Ideal))
    (b a : Fin 128) (d : Fin 8) (f : Fin 256) :
    val_main_v9 (F := Ideal) x0 x2 (ix4 b a d f) = Cert.Pool.pickR (fun k => x0 (ix3 b k f)) (x2 (ix3 b a d)) := by
  unfold val_main_v9 Host.gather
  rw [gather_idx, pad_eq]
  unfold Cert.Pool.pickR Cert.Pool.rowR
  show Cert.Pool.padCol _ _ (min (val_main_v8 (F := Ideal) x2 (ix4 b a d (0 : Fin 1))).toInt.toNat 128) = _
  rw [val_main_v8_apply, val_main_v7_apply, val_main_v4_apply, val_main_v6_apply, val_main_v1_apply, val_main_v0_apply,
    val_main_c_apply, val_main_v3_apply, val_main_c_1_apply, val_main_v5_apply, val_main_c_2_apply]
  have e : idx_main_v8 (ix4 b a d (0 : Fin 1)) = ix3 b a d :=
    funext fun c => Fin.ext (by match c with | ⟨0, _⟩ => rfl | ⟨1, _⟩ => rfl | ⟨2, _⟩ => rfl)
  rw [e]

/-- The joined array at (b, a, k, f), k below 9: entry 0 is the atom's own, entry k + 1 is slot k's. -/
theorem cat_eq (x0 : (⟨S128x128x256, .f32⟩ : BufTy).Contents (Elt Ideal)) (x2 : (⟨S128x128x8, .i32⟩ : BufTy).Contents (Elt Ideal))
    (b a : Fin 128) (k : Fin 9) (f : Fin 256) :
    val_main_v11 (F := Ideal) x0 x2 (ix4 b a k f)
      = Cert.Pool.nine (fun q => x0 (ix3 b q f)) (fun d => x2 (ix3 b a d)) a k := by
  unfold val_main_v11 Cert.Pool.nine
  by_cases hk : k.val = 0
  · rw [dif_pos hk]
    rw [concatenate_pair_apply_left 2 (val_main_v10 (F := Ideal) x0) (val_main_v9 (F := Ideal) x0 x2)
      concatenates_S128x128x1x256_S128x128x8x256_S128x128x9x256_d2 (ix4 b a k f) rfl (ix4 b a (0 : Fin 1) f)
      (fun c => by
        match c with
        | ⟨0, _⟩ => rfl
        | ⟨1, _⟩ => rfl
        | ⟨2, _⟩ => show 0 = k.val; omega
        | ⟨3, _⟩ => rfl)]
    rw [val_main_v10_apply]
    exact congrArg x0 (funext fun c => Fin.ext (by match c with | ⟨0, _⟩ => rfl | ⟨1, _⟩ => rfl | ⟨2, _⟩ => rfl))
  · rw [dif_neg hk]
    have hk9 := k.isLt
    rw [concatenate_pair_apply_right 2 (val_main_v10 (F := Ideal) x0) (val_main_v9 (F := Ideal) x0 x2)
      concatenates_S128x128x1x256_S128x128x8x256_S128x128x9x256_d2 (ix4 b a k f) rfl rfl
      (ix4 b a (⟨k.val - 1, by omega⟩ : Fin 8) f)
      (fun c hc => by
        match c with
        | ⟨0, _⟩ => rfl
        | ⟨1, _⟩ => rfl
        | ⟨2, _⟩ => exact absurd rfl hc
        | ⟨3, _⟩ => rfl)
      (by show k.val - 1 + 1 = k.val; omega)]
    rw [gather_eq]

/-- A maximum over axis 2 of a 128 × 128 × 9 × 256 array, at (b, a, f): the fold of the maximum from the initial value
    over the nine entries (b, a, k, f). -/
theorem reduce_at (y : S128x128x9x256.Idx → Ideal .f32) (v : S_.Idx → Ideal .f32) (b a : Fin 128) (f : Fin 256) :
    Host.reduce (FloatOps.maximumf (F := Ideal) (φ := .f32)) y v reducesTo_S128x128x9x256_S128x128x256_d2 h_S_ (ix3 b a f)
      = (Finset.univ : Finset (Fin 9)).fold (FloatOps.maximumf (F := Ideal) (φ := .f32)) (v (Shape.Idx.first h_S_))
          (fun k => y (ix4 b a k f)) := by
  have hred : S128x128x9x256.Reduces [2] S128x128x256 := by decide
  refine (Host.reduce_eq_fold_single (α := Ideal .f32) (s := S128x128x9x256) (t := S128x128x256) (a := (2 : Fin 4)) (u := S_)
    (FloatOps.maximumf (F := Ideal) (φ := .f32)) y v reducesTo_S128x128x9x256_S128x128x256_d2 hred h_S_ (ix3 b a f)).trans ?_
  refine congrArg (fun g => (Finset.univ : Finset (Fin 9)).fold (FloatOps.maximumf (F := Ideal) (φ := .f32))
    (v (Shape.Idx.first h_S_)) g) (funext fun k => ?_)
  show y (hred.lift (ix3 b a f) k) = y (ix4 b a k f)
  exact congrArg y (funext fun c => Fin.ext (by
    match c with | ⟨0, _⟩ => rfl | ⟨1, _⟩ => rfl | ⟨2, _⟩ => rfl | ⟨3, _⟩ => rfl))

/-- The reduced array at (b, a, f): the maximum folded from `-∞` over the nine entries. -/
theorem reduce_eq (x0 : (⟨S128x128x256, .f32⟩ : BufTy).Contents (Elt Ideal)) (x2 : (⟨S128x128x8, .i32⟩ : BufTy).Contents (Elt Ideal))
    (b a : Fin 128) (f : Fin 256) :
    val_main_v12 (F := Ideal) x0 x2 (ix3 b a f)
      = (Finset.univ : Finset (Fin 9)).fold max (Ideal.ofBits .f32 0xFF800000#32)
          (Cert.Pool.nine (fun q => x0 (ix3 b q f)) (fun d => x2 (ix3 b a d)) a) := by
  unfold val_main_v12
  refine (reduce_at (val_main_v11 (F := Ideal) x0 x2) (val_main_cst (F := Ideal)) b a f).trans ?_
  have hfun : (fun k : Fin 9 => val_main_v11 (F := Ideal) x0 x2 (ix4 b a k f))
      = Cert.Pool.nine (fun q => x0 (ix3 b q f)) (fun d => x2 (ix3 b a d)) a :=
    funext fun k => cat_eq x0 x2 b a k f
  rw [hfun]
  rfl

/-- The reference's last stage is `Cert.Pool.GR` of the atoms and the edges. -/
theorem result_eq (x0 : (⟨S128x128x256, .f32⟩ : BufTy).Contents (Elt Ideal)) (x2 : (⟨S128x128x8, .i32⟩ : BufTy).Contents (Elt Ideal)) :
    val_main_v22 (F := Ideal) x0 x2 = Cert.Pool.GR x0 x2 := by
  funext i
  obtain ⟨b, a, f, rfl⟩ : ∃ b a f, i = ix3 b a f := ⟨i 0, i 1, i 2, eq_ix3 i⟩
  rw [val_main_v22_apply, reduce_eq, mask_eq]
  rfl

end Cert.ReferenceIdeal.RefValue

end
-- ==== Proof.PreRange.lean ====
/-
  The precondition read back: where it holds, every edge word is in range — the padding `-1` or an index below 128.
  The precondition's last conjunct is the `and` over all (b, a, d) of "`-1 ≤ e` signed and `e < 128` signed".
-/
import proofs.«416072_j52072183497147_1_alg».proof.Defs
import proofs.«416072_j52072183497147_1_alg».proof.Proof.Gen.Pre_finite_inputs
import proofs.«416072_j52072183497147_1_alg».proof.Proof.Gen.KernelIdeal
import proofs.«416072_j52072183497147_1_alg».proof.Proof.Spec
import Idealize.ShloMosaic.Lib.ReduceAll
import Idealize.ShloMosaic.Lib.ValueIdx

noncomputable section

namespace Cert.Pool

open Idealize.ShloMosaic Idealize.ShloMosaic.ValueIdx Idealize.SL.Sem

/-- A one-bit word made from a Boolean is 1 exactly when the Boolean is true. -/
private theorem bit_eq_one (b : Bool) : BitVec.ofBool b = 1#1 ↔ b = true := by cases b <;> decide

/-- A word that is at least -1 and below 128, both signed, is the padding or an index below 128. -/
theorem inRange_of_compares (w : BitVec 32) (h0 : IntOp.cmpi .sge w 4294967295#32 = 1#1)
    (h1 : IntOp.cmpi .slt w 128#32 = 1#1) : InRange w := by
  unfold IntOp.cmpi at h0 h1
  rw [bit_eq_one] at h0 h1
  simp only [BitVec.slt, BitVec.sle, decide_eq_true_eq] at h0 h1
  have hm : (4294967295#32 : BitVec 32).toInt = -1 := by decide
  have hb : (128#32 : BitVec 32).toInt = 128 := by decide
  rw [hm] at h0
  rw [hb] at h1
  have h32 := w.isLt
  by_cases hw : w.toNat < 128
  · exact Or.inr hw
  · left
    apply BitVec.eq_of_toNat_eq
    show w.toNat = 4294967295
    unfold BitVec.toInt at h0 h1
    split at h1 <;> omega

/-- The scalar shape has one index. -/
instance : Subsingleton Cert.Pre_finite_inputs.S_.Idx := ⟨fun a b => funext fun d => d.elim0⟩

/-- Under the precondition every edge word of the kernel's third argument is in range. -/
theorem edges_inRange (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S128x128x8.Idx) :
    InRange (m ((c.tc : Thread Cert.KernelIdeal.nD Cert.KernelIdeal.τ).loc Cert.KernelIdeal.main_arg2) i) := by
  have e := congrFun (h c) ValueIdx.ix0
  unfold Cert.Pre_finite_inputs.fn at e
  simp only [andi] at e
  rw [IntOp.andi_eq_one] at e
  have e1 := Host.reduce_andi_all _ _ _ _ _ e.2 i
  simp only [andi, cmpi, broadcastInDim, constantI] at e1
  rw [IntOp.andi_eq_one] at e1
  exact inRange_of_compares _ e1.1 e1.2

end Cert.Pool

end
-- ==== Proof.lean ====
/-
  The certificate's claims, assembled.

  The kernel pools, for every sample, atom and feature, the maximum of the atom's own entry and its eight neighbour
  slots' entries (a padding slot counts as 0), times the bit "the atom has a slot that is not padding"; the reference
  computes the same value by a gather from the zero-padded atoms. The statement carries, beside the finiteness of the
  float inputs, that every edge word is the padding `-1` or an index below 128: outside that range the reference's
  gather wraps or clamps its row while the kernel's one-hot row selects row `max e 0` or nothing.

  The three frames: the two kernels' are their launch certificates; the reference's is its run with the result dropped.
  `preserves` is `True`: the idealized kernel is the kernel's own text. `algebraic`: the kernel's result array is
  `Cert.Pool.GK` of the atoms and the edges (Proof/KArray.lean over Proof/KPay.lean), the reference's is `Cert.Pool.GR`
  of them (Proof/RefVal.lean), and on edge words in range (Proof/PreRange.lean) the two are one array
  (Proof/Spec.lean).
-/
import proofs.«416072_j52072183497147_1_alg».proof.Defs
import proofs.«416072_j52072183497147_1_alg».proof.Proof.Gen.Kernel
import proofs.«416072_j52072183497147_1_alg».proof.Proof.Gen.Kernel.Skeleton
import proofs.«416072_j52072183497147_1_alg».proof.Proof.Gen.Kernel.Launch
import proofs.«416072_j52072183497147_1_alg».proof.Proof.Gen.Kernel.Points
import proofs.«416072_j52072183497147_1_alg».proof.Proof.Gen.Kernel.Frame
import proofs.«416072_j52072183497147_1_alg».proof.Proof.Gen.KernelIdeal
import proofs.«416072_j52072183497147_1_alg».proof.Proof.Gen.KernelIdeal.Skeleton
import proofs.«416072_j52072183497147_1_alg».proof.Proof.Gen.KernelIdeal.Launch
import proofs.«416072_j52072183497147_1_alg».proof.Proof.Gen.KernelIdeal.Points
import proofs.«416072_j52072183497147_1_alg».proof.Proof.Gen.KernelIdeal.Frame
import proofs.«416072_j52072183497147_1_alg».proof.Proof.Gen.ReferenceIdeal
import proofs.«416072_j52072183497147_1_alg».proof.Proof.Gen.Pre_finite_inputs
import proofs.«416072_j52072183497147_1_alg».proof.Proof.Gen.KernelIdeal.Value
import proofs.«416072_j52072183497147_1_alg».proof.Proof.RefRun
import proofs.«416072_j52072183497147_1_alg».proof.Proof.RefRead
import proofs.«416072_j52072183497147_1_alg».proof.Proof.Spec
import proofs.«416072_j52072183497147_1_alg».proof.Proof.KPay
import proofs.«416072_j52072183497147_1_alg».proof.Proof.KArray
import proofs.«416072_j52072183497147_1_alg».proof.Proof.RefVal
import proofs.«416072_j52072183497147_1_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the pooled array of the atoms and the edges: the kernel's `GK`, the reference's `GR` of
    arguments that agree, one array where every edge word is in range. -/
theorem algebraic : Cert.algebraic_KernelIdeal_ReferenceIdeal := by
  intro m ρ m' ρ' hpre hagree
  refine ⟨fun c => Cert.Pool.GK (m ((c.tc : Thread Cert.KernelIdeal.nD Cert.KernelIdeal.τ).loc Cert.KernelIdeal.main_arg0))
    (m ((c.tc : Thread Cert.KernelIdeal.nD Cert.KernelIdeal.τ).loc Cert.KernelIdeal.main_arg2)),
    Cert.KernelIdeal.Arr.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v22_eq, Cert.ReferenceIdeal.RefValue.result_eq, (hagree c).1, (hagree c).2.2]
  exact (Cert.Pool.GK_eq_GR _ _ (Cert.Pool.edges_inRange m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
